-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S2048x2048 : Shape := ⟨2, ![2048, 2048]⟩
abbrev S8x16x2048 : Shape := ⟨3, ![8, 16, 2048]⟩
abbrev S8x2048x16 : Shape := ⟨3, ![8, 2048, 16]⟩
abbrev S8 : Shape := ⟨1, ![8]⟩
abbrev S16 : Shape := ⟨1, ![16]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S8x16x2048 : S_.BroadcastsInDim S8x16x2048 (![] : Fin 0 → Fin S8x16x2048.rank)
  reducesTo_S8x16x2048_S_d0_1_2 : S8x16x2048.ReducesTo [0, 1, 2] S_
  bcast_S_S8x2048x16 : S_.BroadcastsInDim S8x2048x16 (![] : Fin 0 → Fin S8x2048x16.rank)
  reducesTo_S8x2048x16_S_d0_1_2 : S8x2048x16.ReducesTo [0, 1, 2] S_
  bcast_S_S8 : S_.BroadcastsInDim S8 (![] : Fin 0 → Fin S8.rank)
  reducesTo_S8_S_d0 : S8.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S8 .f32) (main_arg5 : IVec S16 32) (main_v13 : IVec S_ 1) (main_v16 : IVec S8x2048x16 1) : IVec S_ 1 :=
  let main_c_5 : IVec S_ 1 := constantI S_ 1 1#1
  let main_v17 : IVec S_ 1 := (fun x v => Host.reduce IntOp.andi x v reducesTo_S8x2048x16_S_d0_1_2 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_c_8 : IVec S_ 32 := constantI S_ 32 0#32
  let main_v24 : IVec S16 32 := broadcastInDim S16 ![] bcast_S_S16 main_c_8
  let main_v25 : IVec S16 1 := cmpi .sge main_arg5 main_v24
  let main_c_9 : IVec S_ 32 := constantI S_ 32 8#32
  let main_v26 : IVec S16 32 := broadcastInDim S16 ![] bcast_S_S16 main_c_9
  let main_v27 : IVec S16 1 := cmpi .slt main_arg5 main_v26
  let main_v28 : IVec S16 1 := andi main_v25 main_v27
  let main_c_10 : IVec S_ 1 := constantI S_ 1 1#1
  let main_v29 : IVec S_ 1 := (fun x v => Host.reduce IntOp.andi x v reducesTo_S16_S_d0 h_S_) main_v28 main_c_10
  let main_v30 : IVec S_ 1 := andi main_v23 main_v29
  main_v30

def fn {F : FTy → Type} [FloatOps F] (main_arg0 : FVec F S16x2048x2048 .f32) (main_arg1 : FVec F S2048x2048 .f32) (main_arg2 : FVec F S8x16x2048 .f32) (main_arg3 : FVec F S8x2048x16 .f32) (main_arg4 : FVec F S8 .f32) (main_arg5 : IVec S16 32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S8x16x2048 .f32 := Host.absf main_arg2
  let main_cst_2 : FVec F S_ .f32 := constant S_ .f32 0x7F800000#32
  let main_v10 : FVec F S8x16x2048 .f32 := broadcastInDim S8x16x2048 ![] bcast_S_S8x16x2048 main_cst_2
  let main_v11 : IVec S8x16x2048 1 := cmpf .olt main_v9 main_v10
  let main_c_3 : IVec S_ 1 := constantI S_ 1 1#1
  let main_v12 : IVec S_ 1 := (fun x v => Host.reduce IntOp.andi x v reducesTo_S8x16x2048_S_d0_1_2 h_S_) main_v11 main_c_3
  let main_v13 : IVec S_ 1 := andi main_v8 main_v12
  let main_v14 : FVec F S8x2048x16 .f32 := Host.absf main_arg3
  let main_cst_4 : FVec F S_ .f32 := constant S_ .f32 0x7F800000#32
  let main_v15 : FVec F S8x2048x16 .f32 := broadcastInDim S8x2048x16 ![] bcast_S_S8x2048x16 main_cst_4
  let main_v16 : IVec S8x2048x16 1 := cmpf .olt main_v14 main_v15
  fn_part1 (F := F) main_arg4 main_arg5 main_v13 main_v16
-- ==== Kernel.lean ====
abbrev S16x2048x2048 : Shape := ⟨3, ![16, 2048, 2048]⟩
abbrev S2048x2048 : Shape := ⟨2, ![2048, 2048]⟩
abbrev S8x16x2048 : Shape := ⟨3, ![8, 16, 2048]⟩
abbrev S8x2048x16 : Shape := ⟨3, ![8, 2048, 16]⟩
abbrev S8 : Shape := ⟨1, ![8]⟩
abbrev S16 : Shape := ⟨1, ![16]⟩
abbrev S8x2048x2048 : Shape := ⟨3, ![8, 2048, 2048]⟩
abbrev S8x1x1 : Shape := ⟨3, ![8, 1, 1]⟩
abbrev S1x2048x2048 : Shape := ⟨3, ![1, 2048, 2048]⟩
abbrev S1x512x2048 : Shape := ⟨3, ![1, 512, 2048]⟩
abbrev S1 : Shape := ⟨1, ![1]⟩
abbrev S512x2048 : Shape := ⟨2, ![512, 2048]⟩

abbrev nBuf : Space → Nat
  | .hbm => 14
  | .vmem => 6
  | .smem => 1
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S8x16x2048, .f32⟩
  | .hbm, ⟨3, _⟩ => ⟨S8x2048x16, .f32⟩
  | .hbm, ⟨4, _⟩ => ⟨S8, .f32⟩
  | .hbm, ⟨5, _⟩ => ⟨S8x2048x2048, .f32⟩
  | .hbm, ⟨6, _⟩ => ⟨S8x1x1, .f32⟩
  | .hbm, ⟨7, _⟩ => ⟨S8x2048x2048, .f32⟩
  | .hbm, ⟨8, _⟩ => ⟨S8x2048x2048, .f32⟩
  | .hbm, ⟨9, _⟩ => ⟨S1x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .bf16⟩
  | .hbm, ⟨13, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x512x2048, .f32⟩
  | .local _ .vmem, ⟨5, _⟩ => ⟨S1x512x2048, .f32⟩
  | .local _ .smem, ⟨0, _⟩ => ⟨S16, .i32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_v0 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S8_S8x1x1_0 : S8.BroadcastsInDim S8x1x1 (![0] : Fin 1 → Fin S8x1x1.rank)
  bcast_S8x1x1_S8x2048x2048_0_1_2 : S8x1x1.BroadcastsInDim S8x2048x2048 (![0, 1, 2] : Fin 3 → Fin S8x2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bitsLt_bf16_f32 : FTy.bits .bf16 < FTy.bits .f32
  numel1_S1 : S1.numel = 1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S512x2048_S1x512x2048 : S512x2048.ShapeCasts S1x512x2048
  dot_S8x2048x16_S8x16x2048_S8x2048x2048_2_1_1_2_0_0_wf : DotDims.WF S8x2048x16 S8x16x2048 S8x2048x2048 [2] [1] [1] [2] [0] [0]
  dot_S512x2048_S2048x2048_S512x2048_1_1_0_0_n_n_wf : DotDims.WF S512x2048 S2048x2048 S512x2048 [1] [1] [0] [0] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x2048x2048.size a
  hwx0_2 : ∀ i : grid0.Coords, EltTy.bits .f32 = 32 ∨ (Rect.block (s := S16x2048x2048) S1x512x2048.size (cc0_transform_2 i) (hinb0_2 i)).WholeWords (EltTy.packing .f32)

variable [Facts₀]

def dot_S8x2048x16_S8x16x2048_S8x2048x2048_2_1_1_2_0_0 : DotDims S8x2048x16 S8x16x2048 S8x2048x2048 where
  lhsContracting := [2]
  rhsContracting := [1]
  lhsNonContracting := [1]
  rhsNonContracting := [2]
  lhsBatch := [0]
  rhsBatch := [0]
  wf := dot_S8x2048x16_S8x16x2048_S8x2048x2048_2_1_1_2_0_0_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev spec0_0 : Pipeline.WinSpec sig grid0.rank :=
  Pipeline.WinSpec.ofSpec (Memref.whole main_arg0) S1x512x2048.size reads0_0 false false 2 stage0_0 sem0_0 nbuf0_0 hstage0_0

abbrev spec0_1 : Pipeline.WinSpec sig grid0.rank :=
  Pipeline.WinSpec.ofSpec (Memref.whole main_call0_v7) S1x2048x2048.size reads0_1 false false 2 stage0_1 sem0_1 nbuf0_1 hstage0_1

abbrev spec0_2 : Pipeline.WinSpec sig grid0.rank :=
  Pipeline.WinSpec.ofSpec (Memref.whole main_v0) S1x512x2048.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x2048.size a ≤ S8x2048x2048.size a), EltTy.bits .bf16 = 32 ∨ (Rect.block (s := S8x2048x2048) S1x2048x2048.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x2048x2048 : Shape := ⟨3, ![16, 2048, 2048]⟩
abbrev S2048x2048 : Shape := ⟨2, ![2048, 2048]⟩
abbrev S8x16x2048 : Shape := ⟨3, ![8, 16, 2048]⟩
abbrev S8x2048x16 : Shape := ⟨3, ![8, 2048, 16]⟩
abbrev S8 : Shape := ⟨1, ![8]⟩
abbrev S16 : Shape := ⟨1, ![16]⟩
abbrev S_ : Shape := ⟨0, ![]⟩
abbrev S16x1 : Shape := ⟨2, ![16, 1]⟩
abbrev S16x16x2048 : Shape := ⟨3, ![16, 16, 2048]⟩
abbrev S16x2048x16 : Shape := ⟨3, ![16, 2048, 16]⟩
abbrev S16x1x1 : Shape := ⟨3, ![16, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S8x16x2048, .f32⟩
  | .hbm, ⟨3, _⟩ => ⟨S8x2048x16, .f32⟩
  | .hbm, ⟨4, _⟩ => ⟨S8, .f32⟩
  | .hbm, ⟨5, _⟩ => ⟨S16, .i32⟩
  | .hbm, ⟨6, _⟩ => ⟨S16x2048x2048, .f32⟩
  | .hbm, ⟨7, _⟩ => ⟨S_, .i32⟩
  | .hbm, ⟨8, _⟩ => ⟨S16, .i32⟩
  | .hbm, ⟨9, _⟩ => ⟨S16, .i1⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S16x1, .i32⟩
  | .hbm, ⟨15, _⟩ => ⟨S16x16x2048, .f32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S16x1, .i32⟩
  | .hbm, ⟨24, _⟩ => ⟨S16x2048x16, .f32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S16, .f32⟩
  | .hbm, ⟨34, _⟩ => ⟨S16x2048x16, .f32⟩
  | .hbm, ⟨35, _⟩ => ⟨S16x2048x2048, .f32⟩
  | .hbm, ⟨36, _⟩ => ⟨S16x1x1, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16_S16x1x1_0 : S16.BroadcastsInDim S16x1x1 (![0] : Fin 1 → Fin S16x1x1.rank)
  bcast_S16x1x1_S16x2048x2048_0_1_2 : S16x1x1.BroadcastsInDim S16x2048x2048 (![0, 1, 2] : Fin 3 → Fin S16x2048x2048.rank)
  dot_S16x2048x2048_S2048x2048_S16x2048x2048_2_1_01_0_n_n_wf : DotDims.WF S16x2048x2048 S2048x2048 S16x2048x2048 [2] [1] [0, 1] [0] [] []
  gather_S8x16x2048_S16x1_S16x16x2048_12_0_n_n_0_1_1162048_wf : GatherDims.WF S8x16x2048 S16x1 S16x16x2048 [1, 2] [0] [] [0] [] 1 ![1, 16, 2048]
  gather_S8x2048x16_S16x1_S16x2048x16_12_0_n_n_0_1_1204816_wf : GatherDims.WF S8x2048x16 S16x1 S16x2048x16 [1, 2] [0] [] [0] [] 1 ![1, 2048, 16]
  gather_S8_S16x1_S16_n_0_n_n_0_1_1_wf : GatherDims.WF S8 S16x1 S16 [] [0] [] [0] [] 1 ![1]
  dot_S16x2048x2048_S16x16x2048_S16x2048x16_2_2_1_1_0_0_wf : DotDims.WF S16x2048x2048 S16x16x2048 S16x2048x16 [2] [2] [1] [1] [0] [0]
  dot_S16x2048x16_S16x2048x16_S16x2048x2048_2_2_1_1_0_0_wf : DotDims.WF S16x2048x16 S16x2048x16 S16x2048x2048 [2] [2] [1] [1] [0] [0]

variable [Facts₀]

def dot_S16x2048x2048_S2048x2048_S16x2048x2048_2_1_01_0_n_n : DotDims S16x2048x2048 S2048x2048 S16x2048x2048 where
  lhsContracting := [2]
  rhsContracting := [1]
  lhsNonContracting := [0, 1]
  rhsNonContracting := [0]
  lhsBatch := []
  rhsBatch := []
  wf := dot_S16x2048x2048_S2048x2048_S16x2048x2048_2_1_01_0_n_n_wf
def gather_S8x16x2048_S16x1_S16x16x2048_12_0_n_n_0_1_1162048 : GatherDims S8x16x2048 S16x1 S16x16x2048 where
  offsetDims := [1, 2]
  collapsedSliceDims := [0]
  operandBatchingDims := []
  startIndicesBatchingDims := []
  startIndexMap := [0]
  indexVectorDim := 1
  sliceSizes := ![1, 16, 2048]
  wf := gather_S8x16x2048_S16x1_S16x16x2048_12_0_n_n_0_1_1162048_wf
def gather_S8x2048x16_S16x1_S16x2048x16_12_0_n_n_0_1_1204816 : GatherDims S8x2048x16 S16x1 S16x2048x16 where
  offsetDims := [1, 2]
  collapsedSliceDims := [0]
  operandBatchingDims := []
  startIndicesBatchingDims := []
  startIndexMap := [0]
  indexVectorDim := 1
  sliceSizes := ![1, 2048, 16]
  wf := gather_S8x2048x16_S16x1_S16x2048x16_12_0_n_n_0_1_1204816_wf
def gather_S8_S16x1_S16_n_0_n_n_0_1_1 : GatherDims S8 S16x1 S16 where
  offsetDims := []
  collapsedSliceDims := [0]
  operandBatchingDims := []
  startIndicesBatchingDims := []
  startIndexMap := [0]
  indexVectorDim := 1
  sliceSizes := ![1]
  wf := gather_S8_S16x1_S16_n_0_n_n_0_1_1_wf
def dot_S16x2048x2048_S16x16x2048_S16x2048x16_2_2_1_1_0_0 : DotDims S16x2048x2048 S16x16x2048 S16x2048x16 where
  lhsContracting := [2]
  rhsContracting := [2]
  lhsNonContracting := [1]
  rhsNonContracting := [1]
  lhsBatch := [0]
  rhsBatch := [0]
  wf := dot_S16x2048x2048_S16x16x2048_S16x2048x16_2_2_1_1_0_0_wf
def dot_S16x2048x16_S16x2048x16_S16x2048x2048_2_2_1_1_0_0 : DotDims S16x2048x16 S16x2048x16 S16x2048x2048 where
  lhsContracting := [2]
  rhsContracting := [2]
  lhsNonContracting := [1]
  rhsNonContracting := [1]
  lhsBatch := [0]
  rhsBatch := [0]
  wf := dot_S16x2048x16_S16x2048x16_S16x2048x2048_2_2_1_1_0_0_wf

class Facts : Prop extends Facts₀ where

variable [Facts]
-- ==== Proof.PreDecode.lean ====
/-
  The precondition read back. The printed predicate is the conjunction of five "every entry is finite" tests
  (|v| < +inf, one per float input) and one range test on the adapter indices (0 ≤ idx[b] < 8, all b), each a
  reduction by "and" to a scalar. From "the predicate is 1": every entry of every float input is a real number
  (at the ideal instance), and every adapter index, read unsigned, is below 8 (at any instance).
-/
import proofs.«413691_j55001351193152_3_alg».proof.Pre_finite_inputs
import Idealize.ShloMosaic.Lib.ReduceAll
import Idealize.ShloMosaic.Lib.ValueIdx
import Idealize.ShloMosaic.PureOps.Ideal

noncomputable section

namespace Cert.Lora.PreDecode

open Idealize.ShloMosaic Cert.Pre_finite_inputs

variable [hP : Cert.Pre_finite_inputs.Facts]

instance : Subsingleton S_.Idx := ⟨fun a b => funext fun d => d.elim0⟩

theorem ofBool_eq_one (b : Bool) : BitVec.ofBool b = 1#1 ↔ b = true := by cases b <;> decide

/-- A 32-bit word w with 0 ≤ w and w < 8 as signed numbers is below 8 as an unsigned one: a non-negative signed value
    is the unsigned value (the sign bit is clear), and the signed value of the word 8 is 8. -/
theorem toNat_lt_eight (w : BitVec 32) (h0 : IntOp.cmpi .sge w 0#32 = 1#1) (h8 : IntOp.cmpi .slt w 8#32 = 1#1) :
    w.toNat < 8 := by
  have e0 : (0#32).toInt ≤ w.toInt := by
    have : BitVec.ofBool ((0#32).sle w) = 1#1 := h0
    rw [ofBool_eq_one] at this
    simpa [BitVec.sle] using this
  have e8 : w.toInt < (8#32).toInt := by
    have : BitVec.ofBool (w.slt 8#32) = 1#1 := h8
    rw [ofBool_eq_one] at this
    simpa [BitVec.slt] using this
  have z0 : (0#32).toInt = 0 := by decide
  have z8 : (8#32).toInt = 8 := by decide
  rw [z0] at e0
  rw [z8] at e8
  have hw := w.isLt
  rw [BitVec.toInt_eq_toNat_cond] at e0 e8
  split at e0 <;> omega

/-- An extended real whose absolute value is below the f32 pattern of +inf is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = r := by
  have hT : FloatOps.ofBits (F := Ideal) .f32 0x7F800000#32 = (⊤ : EReal) := by simp [Ideal.ofBits, Ideal.ieee]
  rw [hT] at h
  have h' : max x (-x) < ⊤ := by
    have : BitVec.ofBool (decide (max x (-x) < (⊤ : EReal))) = 1#1 := h
    rw [ofBool_eq_one] at this
    exact of_decide_eq_true this
  have hx : x ≠ ⊤ := fun e => by subst e; simp at h'
  have hb : x ≠ ⊥ := fun e => by subst e; simp at h'
  exact ⟨x.toReal, (EReal.coe_toReal hx hb).symm⟩

variable {F : FTy → Type} [FloatOps F]

/-- Every adapter index is below 8 (unsigned), at any instance. -/
theorem idx_lt (a0 : FVec F S16x2048x2048 .f32) (a1 : FVec F S2048x2048 .f32) (a2 : FVec F S8x16x2048 .f32)
    (a3 : FVec F S8x2048x16 .f32) (a4 : FVec F S8 .f32) (a5 : IVec S16 32)
    (h : fn (F := F) a0 a1 a2 a3 a4 a5 = fun _ => 1#1) (k : S16.Idx) : (a5 k).toNat < 8 := by
  have e := congrFun h ValueIdx.ix0
  dsimp only [fn, fn_part1] at e
  simp only [andi, IntOp.andi_eq_one] at e
  have hk := Host.reduce_andi_all _ _ _ _ _ e.2 k
  simp only [andi, cmpi, broadcastInDim, constantI, IntOp.andi_eq_one] at hk
  exact toNat_lt_eight _ hk.1 hk.2

/-- Every entry of every float input is a real number, at the ideal instance. -/
theorem finite (a0 : FVec Ideal S16x2048x2048 .f32) (a1 : FVec Ideal S2048x2048 .f32) (a2 : FVec Ideal S8x16x2048 .f32)
    (a3 : FVec Ideal S8x2048x16 .f32) (a4 : FVec Ideal S8 .f32) (a5 : IVec S16 32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [fn, fn_part1] at e
  simp only [andi, IntOp.andi_eq_one] at e
  obtain ⟨⟨⟨⟨⟨h0, h1⟩, h2⟩, h3⟩, h4⟩, -⟩ := e
  refine ⟨fun i => ?_, fun i => ?_, fun i => ?_, fun i => ?_, fun i => ?_⟩
  · have := Host.reduce_andi_all _ _ _ _ _ h0 i
    simp only [cmpf, Host.absf, broadcastInDim, constant] at this
    exact real_of_abs_lt_inf _ this
  · have := Host.reduce_andi_all _ _ _ _ _ h1 i
    simp only [cmpf, Host.absf, broadcastInDim, constant] at this
    exact real_of_abs_lt_inf _ this
  · have := Host.reduce_andi_all _ _ _ _ _ h2 i
    simp only [cmpf, Host.absf, broadcastInDim, constant] at this
    exact real_of_abs_lt_inf _ this
  · have := Host.reduce_andi_all _ _ _ _ _ h3 i
    simp only [cmpf, Host.absf, broadcastInDim, constant] at this
    exact real_of_abs_lt_inf _ this
  · have := Host.reduce_andi_all _ _ _ _ _ h4 i
    simp only [cmpf, Host.absf, broadcastInDim, constant] at this
    exact real_of_abs_lt_inf _ this

end Cert.Lora.PreDecode

end
-- ==== Proof.OkKernel.lean ====
/-
  The weight window's block index is the adapter index of the batch element, read from the prefetched table. The
  launch is sound only if that block lies inside the stack of 8 merged weights: the index, read unsigned, must be
  below 8, which is the range test of the precondition; the bf16 block is whole rows of the array, so its transfer
  ends on whole words.
-/
import proofs.«413691_j55001351193152_3_alg».proof.Proof.Gen.Kernel.Frame
import proofs.«413691_j55001351193152_3_alg».proof.Proof.PreDecode
import Idealize.ShloMosaic.Lib.Affine

set_option maxRecDepth 16384

noncomputable section

namespace Cert.Kernel.OkOfPre

open Cert.Kernel Cert.Kernel.Gen
open Idealize.ShloMosaic Idealize.ShloMosaic.TcCoe Idealize.SL.Sem

variable {F : FTy → Type} [FloatOps F] [hP : Cert.Pre_finite_inputs.Facts]
variable (m : (ℓ : Loc nD τ sig) → Buf (Elt F) ℓ)

/-- The table the index map reads is the adapter-index argument, which no host operation writes. -/
theorem tbl_eq : tbl m 0 = m (((0 : Dev nD) : Thread nD τ).loc main_arg5) := V_main_arg5 m 0

/-- Under the precondition every block the weight window names lies inside its array, and its ends are whole words. -/
theorem ok_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m := by
  intro i
  have hl : ∀ x, (tbl m 0 x).toNat < 8 := fun x => by
    rw [tbl_eq]; exact Cert.Lora.PreDecode.idx_lt _ _ _ _ _ _ (h 0) x
  obtain ⟨w, hw, e⟩ : ∃ w : BitVec 32, w.toNat < 8 ∧ cc0_transform_1 k0_off1_inb numel1_S1 (tbl m) i = ![w.toNat, 0, 0] :=
    ⟨_, hl _, rfl⟩
  refine ⟨fun a => ?_, Or.inr (Affine.block_words_dvd (by decide) (by decide))⟩
  rw [e]
  fin_cases a <;> simp [S1x2048x2048, S8x2048x2048] <;> omega

end Cert.Kernel.OkOfPre

end
-- ==== Proof.OkKernelIdeal.lean ====
/-
  The weight window's block index is the adapter index of the batch element, read from the prefetched table. The
  launch is sound only if that block lies inside the stack of 8 merged weights: the index, read unsigned, must be
  below 8, which is the range test of the precondition; the bf16 block is whole rows of the array, so its transfer
  ends on whole words.
-/
import proofs.«413691_j55001351193152_3_alg».proof.Proof.Gen.KernelIdeal.Frame
import proofs.«413691_j55001351193152_3_alg».proof.Proof.PreDecode
import Idealize.ShloMosaic.Lib.Affine

set_option maxRecDepth 16384

noncomputable section

namespace Cert.KernelIdeal.OkOfPre

open Cert.KernelIdeal Cert.KernelIdeal.Gen
open Idealize.ShloMosaic Idealize.ShloMosaic.TcCoe Idealize.SL.Sem

variable {F : FTy → Type} [FloatOps F] [hP : Cert.Pre_finite_inputs.Facts]
variable (m : (ℓ : Loc nD τ sig) → Buf (Elt F) ℓ)

/-- The table the index map reads is the adapter-index argument, which no host operation writes. -/
theorem tbl_eq : tbl m 0 = m (((0 : Dev nD) : Thread nD τ).loc main_arg5) := V_main_arg5 m 0

/-- Under the precondition every block the weight window names lies inside its array, and its ends are whole words. -/
theorem ok_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m := by
  intro i
  have hl : ∀ x, (tbl m 0 x).toNat < 8 := fun x => by
    rw [tbl_eq]; exact Cert.Lora.PreDecode.idx_lt _ _ _ _ _ _ (h 0) x
  obtain ⟨w, hw, e⟩ : ∃ w : BitVec 32, w.toNat < 8 ∧ cc0_transform_1 k0_off1_inb numel1_S1 (tbl m) i = ![w.toNat, 0, 0] :=
    ⟨_, hl _, rfl⟩
  refine ⟨fun a => ?_, Or.inr (Affine.block_words_dvd (by decide) (by decide))⟩
  rw [e]
  fin_cases a <;> simp [S1x2048x2048, S8x2048x2048] <;> omega

end Cert.KernelIdeal.OkOfPre

end
-- ==== Proof.KernelPiece.lean ====
/-
  What one grid point leaves in the output's staging buffer. The body loads the activation block and the weight
  block whole, forms their product, and stores it over the whole output block; so after the body the buffer holds
  exactly the stored value, a function of the two loaded blocks.
-/
import proofs.«413691_j55001351193152_3_alg».proof.Proof.Gen.KernelIdeal.Frame
import Idealize.ShloMosaic.Lib.Pipeline.Value
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0, 0] : Fin 3 → Nat) = fun _ => 0 := funext fun a => by fin_cases a <;> rfl

/-- The one covering store's value: the product of the two loaded blocks. -/
theorem out_eq (c : Dev nD) (i : grid0.Coords) (a3 : Memref sig .tc .vmem S1x512x2048 .f32) (h3 : a3.IsWhole)
    (a4 : Memref sig .tc .vmem S1x2048x2048 .bf16) (h4 : a4.IsWhole) (a5 : Memref sig .tc .vmem S1x512x2048 .f32) (h5 : a5.IsWhole)
    (x0 : Vec F S1x512x2048 .f32) (x1 : Vec F S1x2048x2048 .bf16) (xt0 : TbBuf0 (F := F) c tbM0_0) :
    out0_A_2 c i a3 h3 a4 h4 a5 h5 x0 x1 xt0 = k0_pay1 x0 x1 := by
  unfold out0_A_2
  rw [View.read_writes_eq_canon _ _ _ (cover0_A_2 c i a3 h3 a4 h4 a5 h5 x0 x1 xt0)]
  unfold kernelRun0_A
  dsimp only
  sl_unfold_words
  rw [View.canon_unit_zero hz]
  simp only [View.readAt_eq_ld, h3.read_unread, h4.read_unread, View.ld_unit_zero (S := S1x512x2048) hz, View.ld_unit_zero (S := S1x2048x2048) hz]

/-- After the body at point t the output's staging buffer holds the product of the point's two input blocks. -/
theorem outsAt_eq (hO : Ok m) (c : Dev nD) (t : Fin (cfgM m hO).N) :
    outsAt0 m hO c t = k0_pay1 (iblk m hO c 0 t) (iblk m hO c 1 t) := by
  unfold outsAt0
  exact out_eq c _ _ _ _ _ _ _ _ _ _

end Cert.KernelIdeal.Val

end
-- ==== Proof.KernelPayload.lean ====
/-
  The body's arithmetic at an index. The stored value is the product of the activation block (512 rows of 2048) and
  the transposed weight block (2048 rows of 2048), contracted over the shared last axis into a zero accumulator; the
  change of format of the activations is the identity on the extended reals, and the unit leading axes of the blocks
  are dropped before and restored after. Entry (p, o) is Σ_d x[p, d] · w[o, d].
-/
import proofs.«413691_j55001351193152_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

theorem lhsM_0 (i : S512x2048.Idx) (q : dot_S512x2048_S2048x2048_S512x2048_1_1_0_0_n_n.contr.Idx) : (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhsM_1 (i : S512x2048.Idx) (q : dot_S512x2048_S2048x2048_S512x2048_1_1_0_0_n_n.contr.Idx) : (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhsM_0 (i : S512x2048.Idx) (q : dot_S512x2048_S2048x2048_S512x2048_1_1_0_0_n_n.contr.Idx) : (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhsM_1 (i : S512x2048.Idx) (q : dot_S512x2048_S2048x2048_S512x2048_1_1_0_0_n_n.contr.Idx) : (dot_S512x2048_S2048x2048_S512x2048_1_1_0_0_n_n.rhsIdx i q 1).val = (q ⟨0, by decide⟩).val :=
  dot_S512x2048_S2048x2048_S512x2048_1_1_0_0_n_n.rhsIdx_val_of_single rfl i q

/-- Dropping the unit leading axis of a block. -/
theorem tail_ix3 {n1 n2 : Nat} (p : Fin n1) (o : Fin n2) :
    (fun a : Fin 2 => (ix3 (0 : Fin 1) p o) a.succ) = ix2 p o :=
  funext fun a => by match a with | ⟨0, _⟩ => rfl | ⟨1, _⟩ => rfl

theorem cons_ix2 {n1 n2 : Nat} (p : Fin n1) (d : Fin n2) :
    (Fin.cons (⟨0, Nat.one_pos⟩ : Fin 1) (ix2 p d) : (⟨3, ![1, n1, n2]⟩ : Shape).Idx) = ix3 (0 : Fin 1) p d :=
  funext fun a => by match a with | ⟨0, _⟩ => rfl | ⟨1, _⟩ => rfl | ⟨2, _⟩ => rfl

/-- The stored block at (p, o). -/
theorem pay_apply (v0 : Vec Ideal S1x512x2048 .f32) (v3 : Vec Ideal S1x2048x2048 .bf16) (p : Fin 512) (o : Fin 2048) :
    k0_pay1 v0 v3 (ix3 (0 : Fin 1) p o) = ∑ d : Fin 2048, v0 (ix3 (0 : Fin 1) p d) * v3 (ix3 (0 : Fin 1) o d) := by
  unfold k0_pay1
  refine (shapeCast_addUnit_apply ![512, 2048] _ _ _).trans ?_
  refine (congrArg _ (tail_ix3 p o)).trans ?_
  refine (Ideal.matmul_constant_zero_apply dot_S512x2048_S2048x2048_S512x2048_1_1_0_0_n_n none _ _ (ix2 p o)).trans ?_
  refine (Equiv.sum_comp (contrEquiv1 dot_S512x2048_S2048x2048_S512x2048_1_1_0_0_n_n 2048 rfl rfl).symm _).symm.trans ?_
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p o) ((contrEquiv1 dot_S512x2048_S2048x2048_S512x2048_1_1_0_0_n_n 2048 rfl rfl).symm k) = ix2 p k := funext fun x => Fin.ext (by
    match x with
    | ⟨0, _⟩ => exact lhsM_0 _ _
    | ⟨1, _⟩ => exact (lhsM_1 _ _).trans hk)
  have er : dot_S512x2048_S2048x2048_S512x2048_1_1_0_0_n_n.rhsIdx (ix2 p o) ((contrEquiv1 dot_S512x2048_S2048x2048_S512x2048_1_1_0_0_n_n 2048 rfl rfl).symm k) = ix2 o k := funext fun x => Fin.ext (by
    match x with
    | ⟨0, _⟩ => exact rhsM_0 _ _
    | ⟨1, _⟩ => exact (rhsM_1 _ _).trans hk)
  rw [el, er]
  congr 1
  · exact (shapeCast_dropUnit_apply ![512, 2048] v0 _ (ix2 p k)).trans (congrArg v0 (cons_ix2 p k))
  · exact (shapeCast_dropUnit_apply ![2048, 2048] v3 _ (ix2 o k)).trans (congrArg v3 (cons_ix2 o k))

end Cert.KernelIdeal.Val

end
-- ==== Proof.LoraLaw.lean ====
/-
  The algebra that joins the two programs. Per output element the kernel contracts the activation row against a
  MERGED weight row, x · (W + s · (B A)), while the reference adds the base product and the low-rank update computed
  separately, x · W + ((x Aᵀ) Bᵀ) · s. Over the reals the two are equal by distributivity and an exchange of the two
  finite sums; on the extended reals distributivity fails at the infinities, so the law is stated for entries that
  are (coercions of) reals, which is what the finiteness precondition provides.
-/
import Idealize.ShloMosaic.PureOps.Ideal

noncomputable section

namespace Cert.Lora

open Finset

/-- The coercion ℝ → EReal commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The merged-weight contraction against the base product plus the scaled low-rank update, over the reals. -/
theorem law_real {D R : Type} [Fintype D] [Fintype R] (x W : D → ℝ) (A : R → D → ℝ) (B : R → ℝ) (s : ℝ) :
    ∑ d, x d * (W d + s * ∑ r, B r * A r d) = (∑ d, x d * W d) + (∑ r, (∑ d, x d * A r d) * B r) * s := by
  simp only [mul_add, Finset.sum_add_distrib, Finset.mul_sum, Finset.sum_mul]
  congr 1
  rw [Finset.sum_comm]
  exact Finset.sum_congr rfl fun r _ => Finset.sum_congr rfl fun d _ => by ring

/-- The same on the extended reals, for finite entries. -/
theorem law {D R : Type} [Fintype D] [Fintype R] (x W : D → EReal) (A : R → D → EReal) (B : R → EReal) (s : EReal)
    (hx : ∀ d, ∃ q : ℝ, x d = q) (hW : ∀ d, ∃ q : ℝ, W d = q) (hA : ∀ r d, ∃ q : ℝ, A r d = q)
    (hB : ∀ r, ∃ q : ℝ, B r = q) (hs : ∃ q : ℝ, s = q) :
    ∑ d, x d * (W d + s * ∑ r, B r * A r d) = (∑ d, x d * W d) + (∑ r, (∑ d, x d * A r d) * B r) * s := by
  choose x' hx using hx
  choose W' hW using hW
  choose A' hA using hA
  choose B' hB using hB
  obtain ⟨s', rfl⟩ := hs
  simp only [hx, hW, hA, hB, ← EReal.coe_mul, ← coe_sum, ← EReal.coe_add]
  exact congrArg _ (law_real x' W' A' B' s')

end Cert.Lora

end
-- ==== Proof.LoraSpec.lean ====
/-
  The two programs as functions of the argument arrays, element by element, and their equality.

  Batch element b uses adapter a(b): its index word read unsigned (capped at the last adapter, so that the function is
  total). The kernel contracts row (b, t) of x against row o of the merged weight  W + s[a] · (Bm[a] A[a]);
  the reference adds to the base product x Wᵀ the low-rank update ((x A[a]ᵀ) Bm[a]ᵀ) · s[a]. For real entries the two
  agree (the law of the previous module, with the contracted axis of extent 2048 and the rank axis of extent 16).
-/
import proofs.«413691_j55001351193152_3_alg».proof.Proof.LoraLaw
import Idealize.ShloMosaic.Lib.ValueIdx

noncomputable section

namespace Cert.Lora

open Idealize.ShloMosaic Idealize.ShloMosaic.ValueIdx

abbrev SX : Shape := ⟨3, ![16, 2048, 2048]⟩
abbrev SW : Shape := ⟨2, ![2048, 2048]⟩
abbrev SA : Shape := ⟨3, ![8, 16, 2048]⟩
abbrev SB : Shape := ⟨3, ![8, 2048, 16]⟩
abbrev SS : Shape := ⟨1, ![8]⟩
abbrev SI : Shape := ⟨1, ![16]⟩
abbrev SM : Shape := ⟨3, ![8, 2048, 2048]⟩

/-- The adapter of batch element b. -/
def adapter (idx : SI.Idx → BitVec 32) (b : Fin 16) : Fin 8 := ⟨min (idx (ix1 b)).toNat 7, by omega⟩

theorem adapter_val (idx : SI.Idx → BitVec 32) (b : Fin 16) (h : (idx (ix1 b)).toNat < 8) :
    (adapter idx b).val = (idx (ix1 b)).toNat := by
  show min _ 7 = _
  omega

/-- Entry (o, d) of adapter a's merged weight. -/
def merged (W : SW.Idx → EReal) (A : SA.Idx → EReal) (Bm : SB.Idx → EReal) (s : SS.Idx → EReal)
    (a : Fin 8) (o d : Fin 2048) : EReal :=
  W (ix2 o d) + s (ix1 a) * ∑ r : Fin 16, Bm (ix3 a o r) * A (ix3 a r d)

/-- The kernel's result: x against the merged weight of the batch element's adapter. -/
def kernelOut (x : SX.Idx → EReal) (W : SW.Idx → EReal) (A : SA.Idx → EReal) (Bm : SB.Idx → EReal) (s : SS.Idx → EReal)
    (idx : SI.Idx → BitVec 32) : SX.Idx → EReal :=
  fun i => ∑ d : Fin 2048, x (ix3 (i 0) (i 1) d) * merged W A Bm s (adapter idx (i 0)) (i 2) d

/-- The reference's result: the base product plus the scaled low-rank update. -/
def refOut (x : SX.Idx → EReal) (W : SW.Idx → EReal) (A : SA.Idx → EReal) (Bm : SB.Idx → EReal) (s : SS.Idx → EReal)
    (idx : SI.Idx → BitVec 32) : SX.Idx → EReal :=
  fun i => (∑ d : Fin 2048, x (ix3 (i 0) (i 1) d) * W (ix2 (i 2) d))
    + (∑ r : Fin 16, (∑ d : Fin 2048, x (ix3 (i 0) (i 1) d) * A (ix3 (adapter idx (i 0)) r d))
        * Bm (ix3 (adapter idx (i 0)) (i 2) r)) * s (ix1 (adapter idx (i 0)))

/-- For real entries the two results are the same array. -/
theorem kernelOut_eq_refOut (x : SX.Idx → EReal) (W : SW.Idx → EReal) (A : SA.Idx → EReal) (Bm : SB.Idx → EReal)
    (s : SS.Idx → EReal) (idx : SI.Idx → BitVec 32)
    (hx : ∀ i, ∃ q : ℝ, x i = q) (hW : ∀ i, ∃ q : ℝ, W i = q) (hA : ∀ i, ∃ q : ℝ, A i = q)
    (hB : ∀ i, ∃ q : ℝ, Bm i = q) (hs : ∀ i, ∃ q : ℝ, s i = q) :
    kernelOut x W A Bm s idx = refOut x W A Bm s idx :=
  funext fun i =>
    law (fun d => x (ix3 (i 0) (i 1) d)) (fun d => W (ix2 (i 2) d)) (fun r d => A (ix3 (adapter idx (i 0)) r d))
      (fun r => Bm (ix3 (adapter idx (i 0)) (i 2) r)) (s (ix1 (adapter idx (i 0))))
      (fun _ => hx _) (fun _ => hW _) (fun _ _ => hA _) (fun _ => hB _) (hs _)

end Cert.Lora

end
-- ==== Proof.KernelWeights.lean ====
/-
  The merged weights. Before the launch the host forms, for each of the 8 adapters a,
      Wp[a, o, d] = W[o, d] + s[a] · Σ_r Bm[a, o, r] · A[a, r, d]
  (a batched product of Bm and A over the rank axis, scaled, added to the broadcast base weight, then a change of
  format, which is the identity on the extended reals). This is the array the weight window reads; here it is read
  at an index.
-/
import proofs.«413691_j55001351193152_3_alg».proof.Proof.Gen.KernelIdeal.Frame
import proofs.«413691_j55001351193152_3_alg».proof.Proof.LoraSpec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx

/-- The host operations before the launch, as one term of the arguments. -/
def hostWp {F : FTy → Type} [FloatOps F] (W : FVec F S2048x2048 .f32) (A : FVec F S8x16x2048 .f32) (Bm : FVec F S8x2048x16 .f32)
    (s : FVec F S8 .f32) : FVec F S8x2048x2048 .bf16 :=
  truncf .bf16
    (addf
      (broadcastInDim S8x2048x2048 ![0, 1, 2] bcast_S1x2048x2048_S8x2048x2048_0_1_2
        (broadcastInDim S1x2048x2048 ![1, 2] bcast_S2048x2048_S1x2048x2048_1_2 W))
      (mulf
        (broadcastInDim S8x2048x2048 ![0, 1, 2] bcast_S8x1x1_S8x2048x2048_0_1_2 (broadcastInDim S8x1x1 ![0] bcast_S8_S8x1x1_0 s))
        (Host.dotGeneral dot_S8x2048x16_S8x16x2048_S8x2048x2048_2_1_1_2_0_0 none Bm A)))
    bitsLt_bf16_f32

/-- The array the weight window stages is that term of the arguments as launched. -/
theorem V_weights {F : FTy → Type} [FloatOps F] (m : (ℓ : Loc nD τ sig) → Buf (Elt F) ℓ) (c : Dev nD) :
    (V m c main_call0_v7 : S8x2048x2048.Idx → F .bf16)
      = hostWp (m ((c : Thread nD τ).loc main_arg1)) (m ((c : Thread nD τ).loc main_arg2)) (m ((c : Thread nD τ).loc main_arg3))
          (m ((c : Thread nD τ).loc main_arg4)) := by
  dsimp only [Gen.V, Gen.hostOps0]
  after_results
  rfl

/-! The batched product of Bm and A read at an index: which entries of the operands the output entry (a, o, d) and the
    rank coordinate r meet. -/

theorem lhsW_0 (i : S8x2048x2048.Idx) (q : dot_S8x2048x16_S8x16x2048_S8x2048x2048_2_1_1_2_0_0.contr.Idx) : (dot_S8x2048x16_S8x16x2048_S8x2048x2048_2_1_1_2_0_0.lhsIdx i q 0).val = (i 0).val := by
  unfold DotDims.lhsIdx
  rw [dif_pos (show (0 : Fin S8x2048x16.rank) ∈ dot_S8x2048x16_S8x16x2048_S8x2048x2048_2_1_1_2_0_0.lhsBatch by decide)]
  rfl
theorem lhsW_1 (i : S8x2048x2048.Idx) (q : dot_S8x2048x16_S8x16x2048_S8x2048x2048_2_1_1_2_0_0.contr.Idx) : (dot_S8x2048x16_S8x16x2048_S8x2048x2048_2_1_1_2_0_0.lhsIdx i q 1).val = (i 1).val := by
  unfold DotDims.lhsIdx
  rw [dif_neg (show ¬(1 : Fin S8x2048x16.rank) ∈ dot_S8x2048x16_S8x16x2048_S8x2048x2048_2_1_1_2_0_0.lhsBatch by decide), dif_pos (show (1 : Fin S8x2048x16.rank) ∈ dot_S8x2048x16_S8x16x2048_S8x2048x2048_2_1_1_2_0_0.lhsNonContracting by decide)]
  rfl
theorem lhsW_2 (i : S8x2048x2048.Idx) (q : dot_S8x2048x16_S8x16x2048_S8x2048x2048_2_1_1_2_0_0.contr.Idx) : (dot_S8x2048x16_S8x16x2048_S8x2048x2048_2_1_1_2_0_0.lhsIdx i q 2).val = (q ⟨0, by decide⟩).val :=
  dot_S8x2048x16_S8x16x2048_S8x2048x2048_2_1_1_2_0_0.lhsIdx_val_of_single rfl i q
theorem rhsW_0 (i : S8x2048x2048.Idx) (q : dot_S8x2048x16_S8x16x2048_S8x2048x2048_2_1_1_2_0_0.contr.Idx) : (dot_S8x2048x16_S8x16x2048_S8x2048x2048_2_1_1_2_0_0.rhsIdx i q 0).val = (i 0).val := by
  unfold DotDims.rhsIdx
  rw [dif_pos (show (0 : Fin S8x16x2048.rank) ∈ dot_S8x2048x16_S8x16x2048_S8x2048x2048_2_1_1_2_0_0.rhsBatch by decide)]
  rfl
theorem rhsW_1 (i : S8x2048x2048.Idx) (q : dot_S8x2048x16_S8x16x2048_S8x2048x2048_2_1_1_2_0_0.contr.Idx) : (dot_S8x2048x16_S8x16x2048_S8x2048x2048_2_1_1_2_0_0.rhsIdx i q 1).val = (q ⟨0, by decide⟩).val :=
  dot_S8x2048x16_S8x16x2048_S8x2048x2048_2_1_1_2_0_0.rhsIdx_val_of_single rfl i q
theorem rhsW_2 (i : S8x2048x2048.Idx) (q : dot_S8x2048x16_S8x16x2048_S8x2048x2048_2_1_1_2_0_0.contr.Idx) : (dot_S8x2048x16_S8x16x2048_S8x2048x2048_2_1_1_2_0_0.rhsIdx i q 2).val = (i 2).val := by
  unfold DotDims.rhsIdx
  rw [dif_neg (show ¬(2 : Fin S8x16x2048.rank) ∈ dot_S8x2048x16_S8x16x2048_S8x2048x2048_2_1_1_2_0_0.rhsBatch by decide), dif_pos (show (2 : Fin S8x16x2048.rank) ∈ dot_S8x2048x16_S8x16x2048_S8x2048x2048_2_1_1_2_0_0.rhsNonContracting by decide)]
  rfl

/-- Entry (a, o, d) of Bm · A is the sum over the rank axis. -/
theorem delta_apply (Bm : FVec Ideal S8x2048x16 .f32) (A : FVec Ideal S8x16x2048 .f32) (a : Fin 8) (o d : Fin 2048) :
    Host.dotGeneral dot_S8x2048x16_S8x16x2048_S8x2048x2048_2_1_1_2_0_0 none Bm A (ix3 a o d) = ∑ r : Fin 16, Bm (ix3 a o r) * A (ix3 a r d) := by
  simp only [Host.dotGeneral]
  rw [Ideal.dotGeneral_apply, ← Equiv.sum_comp (contrEquiv1 dot_S8x2048x16_S8x16x2048_S8x2048x2048_2_1_1_2_0_0 16 rfl rfl).symm]
  refine Finset.sum_congr rfl fun k _ => ?_
  have hk := contrEquiv1_symm_val dot_S8x2048x16_S8x16x2048_S8x2048x2048_2_1_1_2_0_0 16 rfl rfl k
  have el : dot_S8x2048x16_S8x16x2048_S8x2048x2048_2_1_1_2_0_0.lhsIdx (ix3 a o d) ((contrEquiv1 dot_S8x2048x16_S8x16x2048_S8x2048x2048_2_1_1_2_0_0 16 rfl rfl).symm k) = ix3 a o k := funext fun x => Fin.ext (by
    match x with
    | ⟨0, _⟩ => exact lhsW_0 _ _
    | ⟨1, _⟩ => exact lhsW_1 _ _
    | ⟨2, _⟩ => exact (lhsW_2 _ _).trans hk)
  have er : dot_S8x2048x16_S8x16x2048_S8x2048x2048_2_1_1_2_0_0.rhsIdx (ix3 a o d) ((contrEquiv1 dot_S8x2048x16_S8x16x2048_S8x2048x2048_2_1_1_2_0_0 16 rfl rfl).symm k) = ix3 a k d := funext fun x => Fin.ext (by
    match x with
    | ⟨0, _⟩ => exact rhsW_0 _ _
    | ⟨1, _⟩ => exact (rhsW_1 _ _).trans hk
    | ⟨2, _⟩ => exact rhsW_2 _ _)
  rw [el, er]

/-- The base weight broadcast over the adapters reads W at (o, d). -/
theorem bcastW_apply {α : Type} (W : S2048x2048.Idx → α) (a : Fin 8) (o d : Fin 2048) :
    broadcastInDim S8x2048x2048 ![0, 1, 2] bcast_S1x2048x2048_S8x2048x2048_0_1_2
        (broadcastInDim S1x2048x2048 ![1, 2] bcast_S2048x2048_S1x2048x2048_1_2 W) (ix3 a o d) = W (ix2 o d) := by
  refine (broadcastInDim_apply _ _ _ (ix3 a o d) (ix3 (0 : Fin 1) o d) (fun x => ?_)).trans ?_
  · match x with
    | ⟨0, _⟩ => rfl
    | ⟨1, _⟩ => show o.val = if (2048 : Nat) = 1 then 0 else o.val; rw [if_neg (by decide)]
    | ⟨2, _⟩ => show d.val = if (2048 : Nat) = 1 then 0 else d.val; rw [if_neg (by decide)]
  · exact broadcastInDim_apply _ _ W (ix3 (0 : Fin 1) o d) (ix2 o d) (fun x => by
      match x with
      | ⟨0, _⟩ => show o.val = if (2048 : Nat) = 1 then 0 else o.val; rw [if_neg (by decide)]
      | ⟨1, _⟩ => show d.val = if (2048 : Nat) = 1 then 0 else d.val; rw [if_neg (by decide)])

/-- The scalings broadcast over a weight's entries read s at a. -/
theorem bcastS_apply {α : Type} (s : S8.Idx → α) (a : Fin 8) (o d : Fin 2048) :
    broadcastInDim S8x2048x2048 ![0, 1, 2] bcast_S8x1x1_S8x2048x2048_0_1_2
        (broadcastInDim S8x1x1 ![0] bcast_S8_S8x1x1_0 s) (ix3 a o d) = s (ix1 a) := by
  refine (broadcastInDim_apply _ _ _ (ix3 a o d) (ix3 a (0 : Fin 1) (0 : Fin 1)) (fun x => ?_)).trans ?_
  · match x with
    | ⟨0, _⟩ => show a.val = if (8 : Nat) = 1 then 0 else a.val; rw [if_neg (by decide)]
    | ⟨1, _⟩ => rfl
    | ⟨2, _⟩ => rfl
  · exact broadcastInDim_apply _ _ s (ix3 a (0 : Fin 1) (0 : Fin 1)) (ix1 a) (fun x => by
      match x with
      | ⟨0, _⟩ => show a.val = if (8 : Nat) = 1 then 0 else a.val; rw [if_neg (by decide)])

/-- The merged weight at (a, o, d), on the extended reals. -/
theorem hostWp_apply (W : FVec Ideal S2048x2048 .f32) (A : FVec Ideal S8x16x2048 .f32) (Bm : FVec Ideal S8x2048x16 .f32)
    (s : FVec Ideal S8 .f32) (a : Fin 8) (o d : Fin 2048) :
    hostWp W A Bm s (ix3 a o d) = Cert.Lora.merged W A Bm s a o d := by
  unfold hostWp Cert.Lora.merged
  show (broadcastInDim S8x2048x2048 ![0, 1, 2] bcast_S1x2048x2048_S8x2048x2048_0_1_2
        (broadcastInDim S1x2048x2048 ![1, 2] bcast_S2048x2048_S1x2048x2048_1_2 W) (ix3 a o d) : EReal)
      + (broadcastInDim S8x2048x2048 ![0, 1, 2] bcast_S8x1x1_S8x2048x2048_0_1_2
        (broadcastInDim S8x1x1 ![0] bcast_S8_S8x1x1_0 s) (ix3 a o d) : EReal)
        * (Host.dotGeneral (F := Ideal) dot_S8x2048x16_S8x16x2048_S8x2048x2048_2_1_1_2_0_0 none Bm A (ix3 a o d) : EReal) = _
  rw [bcastW_apply, bcastS_apply, delta_apply]

end Cert.KernelIdeal.Val

end
-- ==== Proof.KernelBlocks.lean ====
/-
  The blocks the body is handed at a grid point. The grid has 16 × 4 points (batch element b, row tile tt). The
  activation window's block at (b, tt) is rows 512·tt … 512·tt + 511 of batch element b; the weight window's block is
  the whole merged weight of the adapter whose number is word b of the prefetched table, read unsigned.
-/
import proofs.«413691_j55001351193152_3_alg».proof.Proof.KernelPiece
import proofs.«413691_j55001351193152_3_alg».proof.Proof.KernelPayload
import proofs.«413691_j55001351193152_3_alg».proof.Proof.KernelWeights

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The activation and output windows' index maps are (b, tt, 0). -/
theorem map0 : ∀ i : grid0.Coords, cc0_transform_0 i = ![(i 0).val, (i 1).val, 0] := by decide +kernel
theorem map2 : ∀ i : grid0.Coords, cc0_transform_2 i = ![(i 0).val, (i 1).val, 0] := by decide +kernel

/-- The two input blocks at a point, at their literal types. -/
abbrev xblk (hO : Ok m) (c : Dev nD) (t : Fin (cfgM m hO).N) : Vec F S1x512x2048 .f32 := iblk m hO c 0 t
abbrev wblk (hO : Ok m) (c : Dev nD) (t : Fin (cfgM m hO).N) : Vec F S1x2048x2048 .bf16 := iblk m hO c 1 t

/-- Row q of batch element b, when q = 512·tt + p. -/
def rowOf (tt : Fin 4) (p : Fin 512) : Fin 2048 := ⟨512 * tt.val + p.val, by have := tt.isLt; have := p.isLt; omega⟩

/-- The activation block at (p, d) is x at (b, 512·tt + p, d). -/
theorem xblk_apply (hO : Ok m) (c : Dev nD) (t : Fin (cfgM m hO).N) (b : Fin 16) (tt : Fin 4)
    (hb : (grid0.coords t 0).val = b.val) (ht : (grid0.coords t 1).val = tt.val) (p : Fin 512) (d : Fin 2048) :
    xblk m hO c t (ix3 (0 : Fin 1) p d) = V m c main_arg0 (ix3 b (rowOf tt p) d) := by
  show V m c main_arg0 ((((cfgM m hO).win 0).blk t).view.emb (ix3 (0 : Fin 1) p d)) = V m c main_arg0 (ix3 b (rowOf tt p) d)
  refine congrArg _ (funext fun a => Fin.ext ?_)
  have h0 := map0 (grid0.coords t)
  match a with
  | ⟨0, _⟩ =>
    show cc0_transform_0 (grid0.coords t) (0 : Fin 3) * 1 + 1 * 0 = b.val
    rw [h0]; show (grid0.coords t 0).val * 1 + 1 * 0 = b.val; omega
  | ⟨1, _⟩ =>
    show cc0_transform_0 (grid0.coords t) (1 : Fin 3) * 512 + 1 * p.val = 512 * tt.val + p.val
    rw [h0]; show (grid0.coords t 1).val * 512 + 1 * p.val = 512 * tt.val + p.val; omega
  | ⟨2, _⟩ =>
    show cc0_transform_0 (grid0.coords t) (2 : Fin 3) * 2048 + 1 * d.val = d.val
    rw [h0]; show 0 * 2048 + 1 * d.val = d.val; omega

/-- The weight window's block index at a point of batch element b is the table's word b, read unsigned. -/
theorem table_word (pf : pre0.Contents (Elt F)) (i : grid0.Coords) (b : Fin 16) (hb : (i 0).val = b.val) :
    cc0_transform_1 k0_off1_inb numel1_S1 pf i (0 : Fin 3) = (pf 0 (ix1 b)).toNat := by
  show (pf 0 _).toNat = (pf 0 (ix1 b)).toNat
  congr 2
  funext x
  apply Fin.ext
  match x with
  | ⟨0, _⟩ =>
    have hf : ∀ (h : 0 < S1.numel), (Shape.Idx.first h (0 : Fin 1)).val = 0 := fun h => by
      have := (Shape.Idx.first h (0 : Fin 1)).isLt
      have e : S1.size (0 : Fin 1) = 1 := by decide
      omega
    have key : ∀ (h : 0 < S1.numel),
        (Scalar.indexCast (BitVec.ofNat 32 (i 0).val)).toNat + 1 * (Shape.Idx.first h (0 : Fin 1)).val = b.val := fun h => by
      rw [hf h]
      have e1 : (Scalar.indexCast (BitVec.ofNat 32 (i 0).val)).toNat = (BitVec.ofNat 32 (i 0).val).toNat := rfl
      rw [e1, BitVec.toNat_ofNat]
      have : (i 0).val < 16 := (i 0).isLt
      omega
    exact key _

/-- The weight block at (o, d) is the staged weight array at (a, o, d), a the table's word b. -/
theorem wblk_apply (hO : Ok m) (c : Dev nD) (t : Fin (cfgM m hO).N) (b : Fin 16) (a : Fin 8)
    (hb : (grid0.coords t 0).val = b.val) (ha : (tbl m 0 (ix1 b)).toNat = a.val) (o : Fin 2048) (d : Fin 2048) :
    wblk m hO c t (ix3 (0 : Fin 1) o d) = V m c main_call0_v7 (ix3 a o d) := by
  show V m c main_call0_v7 ((((cfgM m hO).win 1).blk t).view.emb (ix3 (0 : Fin 1) o d)) = V m c main_call0_v7 (ix3 a o d)
  refine congrArg _ (funext fun x => Fin.ext ?_)
  match x with
  | ⟨0, _⟩ =>
    show cc0_transform_1 k0_off1_inb numel1_S1 (tbl m) (grid0.coords t) (0 : Fin 3) * 1 + 1 * 0 = a.val
    rw [table_word (tbl m) (grid0.coords t) b hb, ha]; omega
  | ⟨1, _⟩ =>
    show cc0_transform_1 k0_off1_inb numel1_S1 (tbl m) (grid0.coords t) (1 : Fin 3) * 2048 + 1 * o.val = o.val
    show 0 * 2048 + 1 * o.val = o.val; omega
  | ⟨2, _⟩ =>
    show cc0_transform_1 k0_off1_inb numel1_S1 (tbl m) (grid0.coords t) (2 : Fin 3) * 2048 + 1 * d.val = d.val
    show 0 * 2048 + 1 * d.val = d.val; omega

end Cert.KernelIdeal.Val

end
-- ==== Proof.KernelValue.lean ====
/-
  The kernel's result array. Point (b, tt) writes back the product of its two blocks into rows 512·tt … of batch
  element b of the result; read at an index this is the contraction of row (b, t) of x with row o of the merged
  weight of b's adapter. The 64 blocks tile the result array, so after the run the whole array is that function of
  the arguments.
-/
import proofs.«413691_j55001351193152_3_alg».proof.Proof.KernelBlocks

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result as a function of the arguments as launched. -/
abbrev outArr (c : Dev nD) : S16x2048x2048.Idx → EReal :=
  Cert.Lora.kernelOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where the output block of point t sits in the result array. -/
theorem oemb (hO : Ok m) (t : Fin (cfgM m hO).N) (b : Fin 16) (tt : Fin 4)
    (hb : (grid0.coords t 0).val = b.val) (ht : (grid0.coords t 1).val = tt.val) (p : Fin 512) (o : Fin 2048) :
    (((cfgM m hO).win 2).blk t).view.emb (ix3 (0 : Fin 1) p o) = ix3 b (rowOf tt p) o := by
  refine funext fun a => Fin.ext ?_
  have h2 := map2 (grid0.coords t)
  match a with
  | ⟨0, _⟩ =>
    show cc0_transform_2 (grid0.coords t) (0 : Fin 3) * 1 + 1 * 0 = b.val
    rw [h2]; show (grid0.coords t 0).val * 1 + 1 * 0 = b.val; omega
  | ⟨1, _⟩ =>
    show cc0_transform_2 (grid0.coords t) (1 : Fin 3) * 512 + 1 * p.val = 512 * tt.val + p.val
    rw [h2]; show (grid0.coords t 1).val * 512 + 1 * p.val = 512 * tt.val + p.val; omega
  | ⟨2, _⟩ =>
    show cc0_transform_2 (grid0.coords t) (2 : Fin 3) * 2048 + 1 * o.val = o.val
    rw [h2]; show 0 * 2048 + 1 * o.val = o.val; omega

/-- What point t writes back is its block of the result function. -/
theorem flushed_eq (hO : Ok m) (hr : ∀ k, (m (((0 : Dev nD) : Thread nD τ).loc main_arg5) k).toNat < 8) (c : Dev nD) (t : Fin (cfgM m hO).N) :
    (dats m hO 0 c).flushed 2 t = (((cfgM m hO).win 2).blk t).view.read (Elt Ideal) (outArr m c) := by
  show ((cfgM m hO).win 2).cut ((cfgM m hO).grid.coords t) ((dats m hO 0 c).after 2 t) = _
  rw [after0_2, outsAt_eq]
  obtain rfl : c = 0 := Subsingleton.elim _ _
  show (fun y : S1x512x2048.Idx => k0_pay1 (xblk m hO 0 t) (wblk m hO 0 t) y)
    = fun y : S1x512x2048.Idx => outArr m 0 ((((cfgM m hO).win 2).blk t).view.emb y)
  funext y
  obtain ⟨z, p, o, rfl⟩ : ∃ (z : Fin 1) (p : Fin 512) (o : Fin 2048), y = ix3 z p o := ⟨y 0, y 1, y 2, eq_ix3 y⟩
  obtain rfl : z = 0 := Subsingleton.elim _ _
  have hb : (grid0.coords t 0).val = (grid0.coords t 0 : Fin 16).val := rfl
  have ht : (grid0.coords t 1).val = (grid0.coords t 1 : Fin 4).val := rfl
  have hlt := hr (ix1 (grid0.coords t 0 : Fin 16))
  have ha : (tbl m 0 (ix1 (grid0.coords t 0 : Fin 16))).toNat
      = (Cert.Lora.adapter (m (((0 : Dev nD) : Thread nD τ).loc main_arg5)) (grid0.coords t 0 : Fin 16)).val := by
    have e : tbl m 0 = m (((0 : Dev nD) : Thread nD τ).loc main_arg5) := V_main_arg5 m 0
    rw [e, Cert.Lora.adapter_val _ _ hlt]
  rw [pay_apply, oemb m hO t _ _ hb ht p o]
  unfold outArr Cert.Lora.kernelOut
  refine Finset.sum_congr rfl fun d _ => ?_
  rw [xblk_apply m hO 0 t _ _ hb ht p d, wblk_apply m hO 0 t _ _ hb ha o d, V_main_arg0, V_weights, hostWp_apply]

theorem onto : ∀ (q0 : Fin 16) (q1 : Fin 4), ∃ t : Fin grid0.N, (grid0.coords t 0).val = q0.val ∧ (grid0.coords t 1).val = q1.val := by
  decide +kernel

/-- An index of the result is in point t's block iff each coordinate is in the block's range. -/
theorem mem_blk (hO : Ok m) (t : Fin (cfgM m hO).N) (i : S16x2048x2048.Idx) :
    i ∈ (((cfgM m hO).win 2).blk t).view.set ↔ ∀ a : Fin 3, cc0_transform_2 (grid0.coords t) a * S1x512x2048.size a ≤ (i a).val
      ∧ (i a).val < cc0_transform_2 (grid0.coords t) a * S1x512x2048.size a + S1x512x2048.size a := by
  show i ∈ ((View.whole main_v0).slice (((cfgM m hO).win 2).rect t)).set ↔ _
  refine (Finset.ext_iff.mp (View.set_slice_whole main_v0 (((cfgM m hO).win 2).rect t)) i).trans (Rect.mem_set_unit.trans ?_)
  exact Iff.rfl

/-- Every index of the result lies in some point's block: batch element i₀, row tile i₁ / 512. -/
theorem cover (hO : Ok m) (i : S16x2048x2048.Idx) :
    ∃ t : Fin (cfgM m hO).N, ((cfgM m hO).win 2).flush t = true ∧ i ∈ (((cfgM m hO).win 2).blk t).view.set := by
  have h0 : (i 0).val < 16 := (i 0).isLt
  have h1 : (i 1).val < 2048 := (i 1).isLt
  have h2 : (i 2).val < 2048 := (i 2).isLt
  obtain ⟨t, e0, e1⟩ := onto ⟨(i 0).val, h0⟩ ⟨(i 1).val / 512, by omega⟩
  refine ⟨t, flush0_2 (adm m hO) t, ?_⟩
  rw [mem_blk]
  have hm := map2 (grid0.coords t)
  intro a
  match a with
  | ⟨0, _⟩ =>
    show cc0_transform_2 (grid0.coords t) (0 : Fin 3) * 1 ≤ (i 0).val ∧ (i 0).val < cc0_transform_2 (grid0.coords t) (0 : Fin 3) * 1 + 1
    rw [hm]; show (grid0.coords t 0).val * 1 ≤ (i 0).val ∧ (i 0).val < (grid0.coords t 0).val * 1 + 1
    simp only at e0; omega
  | ⟨1, _⟩ =>
    show cc0_transform_2 (grid0.coords t) (1 : Fin 3) * 512 ≤ (i 1).val ∧ (i 1).val < cc0_transform_2 (grid0.coords t) (1 : Fin 3) * 512 + 512
    rw [hm]; show (grid0.coords t 1).val * 512 ≤ (i 1).val ∧ (i 1).val < (grid0.coords t 1).val * 512 + 512
    simp only at e1; omega
  | ⟨2, _⟩ =>
    show cc0_transform_2 (grid0.coords t) (2 : Fin 3) * 2048 ≤ (i 2).val ∧ (i 2).val < cc0_transform_2 (grid0.coords t) (2 : Fin 3) * 2048 + 2048
    rw [hm]; show 0 * 2048 ≤ (i 2).val ∧ (i 2).val < 0 * 2048 + 2048
    omega

/-- The result array after the run. -/
theorem final (hO : Ok m) (hr : ∀ k, (m (((0 : Dev nD) : Thread nD τ).loc main_arg5) k).toNat < 8) (c : Dev nD) :
    (dats m hO 0 c).arrAt 2 (cfgM m hO).N = outArr m c :=
  (dats m hO 0 c).arrAt_eq_of_cover 2 (outArr m c) (fun t _ => flushed_eq m hO hr c t) (cover m hO)

/-- The run, read: the result at the function of the arguments, the arguments unchanged. -/
theorem run (hO : Ok m) (hr : ∀ k, (m (((0 : Dev nD) : Thread nD τ).loc main_arg5) k).toNat < 8) :
    θ_run defs (onTc (τ := τ) (main (F := Ideal))) ⟨m, fun _ => 0, ρ⟩ fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 2).trans (final m hO hr c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.Val

end
-- ==== Proof.LibGatherRows.lean ====
/-
  jnp's row take `x[idx]` of a rank-3 array, read at an index.

  `x[idx]` for x : [N, P, Q] and integer idx : [n] lowers to a stablehlo.gather whose start indices are the [n, 1]
  column of positions, whose leading operand axis is collapsed and start-indexed, whose two trailing axes are the
  offset axes, with no batching axes and the index vector on axis 1. Result entry (b, p, q) is x at
  (row, p, q) where row is position b's start index read signed and clamped into [0, N − 1] (StableHLO's clamp).
  Stated for any extents; the dimension numbers enter as equations, each closed by `rfl` at a printed record.
-/
import Idealize.ShloMosaic.Lib.StableHlo.Predicate
import Idealize.ShloMosaic.Lib.ValueIdx

namespace Idealize.ShloMosaic.LibGatherRows

open Idealize.ShloMosaic.ValueIdx Idealize.ShloMosaic.StableHlo.Predicate

theorem one_nmem : (1 : Fin 3) ∉ ([0] : List (Fin 3)) := by decide
theorem two_nmem : (2 : Fin 3) ∉ ([0] : List (Fin 3)) := by decide

/-- The dimension numbers of the row take, with the slice sizes and the well-formedness left open. -/
abbrev rowsDims {N P Q n : Nat} (ss : Fin 3 → Nat)
    (wf : GatherDims.WF ⟨3, ![N, P, Q]⟩ ⟨2, ![n, 1]⟩ ⟨3, ![n, P, Q]⟩ [1, 2] [0] [] [0] [] 1 ss) :
    GatherDims ⟨3, ![N, P, Q]⟩ ⟨2, ![n, 1]⟩ ⟨3, ![n, P, Q]⟩ := ⟨[1, 2], [0], [], [], [0], 1, ss, wf⟩

/-- The row take of a rank-3 array read at (b, p, q). -/
theorem gather_rows {α : Type} {N P Q n w : Nat} (d : GatherDims ⟨3, ![N, P, Q]⟩ ⟨2, ![n, 1]⟩ ⟨3, ![n, P, Q]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, P, Q]⟩ : Shape).Idx → α) (idx : IVec ⟨2, ![n, 1]⟩ w) (b : Fin n) (p : Fin P) (q : Fin Q) (hN : 0 < N) :
    Host.gather d x idx (ix3 b p q) = x (ix3 ⟨min (idx (ixP b)).toInt.toNat (N - 1), by omega⟩ p q) := by
  obtain ⟨od, cd, ob, sb, sm, iv, ss, wf⟩ := d
  dsimp only at hoff hcoll hob hsb hsim hivd
  subst hoff hcoll hob hsb hsim hivd
  unfold Host.gather
  congr 1
  funext a
  apply Fin.ext
  match a with
  | ⟨0, _⟩ =>
    have hsl : ss (0 : Fin 3) = 1 := GatherDims.slice_collapsed (rowsDims ss wf) 0 (List.mem_singleton.mpr rfl)
    show (rowsDims ss wf).start (ix3 b p q) idx (0 : Fin 3) + (rowsDims ss wf).batchCoord (ix3 b p q) (0 : Fin 3)
        + (rowsDims ss wf).offCoord (ix3 b p q) (0 : Fin 3)
      = min (idx (ixP b)).toInt.toNat (N - 1)
    rw [GatherDims.batchCoord_eq_zero _ _ _ (by simp), GatherDims.offCoord_eq_zero _ _ _ (by rw [GatherDims.mem_sKept]; simp),
      Nat.add_zero]
    unfold GatherDims.start
    rw [dif_pos (by simp)]
    show min (idx _).toInt.toNat (N - ss 0) = _
    rw [hsl]
    congr 3
    congr 1
    funext k
    match k with
    | ⟨0, _⟩ =>
      unfold GatherDims.siIdx
      rw [dif_neg (by exact Nat.zero_ne_one)]
      unfold GatherDims.siCoord
      apply Fin.ext
      simp only [Fin.val_cast]
      rfl
    | ⟨1, _⟩ =>
      unfold GatherDims.siIdx
      rw [dif_pos rfl]
      apply Fin.ext
      rfl
  | ⟨1, _⟩ =>
    show (rowsDims ss wf).start (ix3 b p q) idx (1 : Fin 3) + (rowsDims ss wf).batchCoord (ix3 b p q) (1 : Fin 3)
        + (rowsDims ss wf).offCoord (ix3 b p q) (1 : Fin 3) = p.val
    rw [GatherDims.batchCoord_eq_zero _ _ _ (by simp), Nat.add_zero]
    unfold GatherDims.start
    rw [dif_neg (one_nmem), Nat.zero_add]
    unfold GatherDims.offCoord
    rw [dif_pos (by rw [GatherDims.mem_sKept]; exact ⟨one_nmem, by show (1 : Fin 3) ∉ []; simp⟩)]
    rfl
  | ⟨2, _⟩ =>
    show (rowsDims ss wf).start (ix3 b p q) idx (2 : Fin 3) + (rowsDims ss wf).batchCoord (ix3 b p q) (2 : Fin 3)
        + (rowsDims ss wf).offCoord (ix3 b p q) (2 : Fin 3) = q.val
    rw [GatherDims.batchCoord_eq_zero _ _ _ (by simp), Nat.add_zero]
    unfold GatherDims.start
    rw [dif_neg (two_nmem), Nat.zero_add]
    unfold GatherDims.offCoord
    rw [dif_pos (by rw [GatherDims.mem_sKept]; exact ⟨two_nmem, by show (2 : Fin 3) ∉ []; simp⟩)]
    rfl

end Idealize.ShloMosaic.LibGatherRows
-- ==== Proof.RefValue.lean ====
/-
  The reference read at an index. jnp's `A[idx]`, `Bm[idx]`, `scalings[idx]` first wrap a negative index (add 8) and
  then clamp it into [0, 7]; for an index already in [0, 8) both steps are the identity, so each take reads the row
  of the batch element's adapter. With the three takes read, the reference's chain of operations at entry (b, t, o) is
      Σ_d x[b,t,d] · W[o,d]  +  (Σ_r (Σ_d x[b,t,d] · A[a,r,d]) · Bm[a,o,r]) · s[a],      a the adapter of b.
-/
import proofs.«413691_j55001351193152_3_alg».proof.Proof.Gen.ReferenceIdeal.Run
import proofs.«413691_j55001351193152_3_alg».proof.Proof.Gen.ReferenceIdeal.Read
import proofs.«413691_j55001351193152_3_alg».proof.Proof.LoraSpec
import proofs.«413691_j55001351193152_3_alg».proof.Proof.LibGatherRows
import Idealize.ShloMosaic.Lib.StableHlo.Predicate

set_option maxRecDepth 16384

noncomputable section

namespace Cert.ReferenceIdeal.RefVal

open Cert.ReferenceIdeal Cert.ReferenceIdeal.Gen Cert.ReferenceIdeal.Read
open Idealize.ShloMosaic Idealize.ShloMosaic.ValueIdx Idealize.ShloMosaic.StableHlo.Predicate Idealize.ShloMosaic.LibGatherRows
open Cert.Lora (adapter)

variable {F : FTy → Type} [FloatOps F]

/-- A word in [0, 8) is not negative, so the wrap of negative indices leaves it alone. -/
theorem wrap_id (w y : BitVec 32) (hw : w.toNat < 8) : Scalar.select (IntOp.cmpi .slt w 0#32) y w = w := by
  have hn : ¬ IntOp.cmpi .slt w 0#32 = 1#1 := by
    rw [slt_iff_toNat (by omega) (by decide)]
    show ¬ w.toNat < 0
    omega
  unfold Scalar.select
  exact if_neg hn

/-- Its signed reading, clamped into [0, 7], is the adapter. -/
theorem clamp_id (x5 : S16.Idx → BitVec 32) (b : Fin 16) (hr : ∀ k, (x5 k).toNat < 8) :
    min (x5 (ix1 b)).toInt.toNat (8 - 1) = (adapter x5 b).val := by
  have h := hr (ix1 b)
  rw [Cert.Lora.adapter_val x5 b h, toInt_eq_toNat_of_lt (by omega)]
  show min ((x5 (ix1 b)).toNat : Int).toNat 7 = _
  rw [Int.toNat_natCast]
  omega

theorem col_row (b : Fin 16) : idx_main_v6 (ixP b) = ix1 b := funext fun a => by match a with | ⟨0, _⟩ => rfl
theorem col_row13 (b : Fin 16) : idx_main_v13 (ixP b) = ix1 b := funext fun a => by match a with | ⟨0, _⟩ => rfl
theorem col_row20 (b : Fin 16) : idx_main_v20 (ixP b) = ix1 b := funext fun a => by match a with | ⟨0, _⟩ => rfl

/-- The three columns of start indices hold the index words themselves. -/
theorem start6 (x5 : S16.Idx → BitVec 32) (hr : ∀ k, (x5 k).toNat < 8) (b : Fin 16) : val_main_v6 (F := F) x5 (ixP b) = x5 (ix1 b) := by
  rw [val_main_v6_apply, val_main_v5_apply, val_main_v2_apply, val_main_v1_apply, val_main_c_apply, col_row]
  exact wrap_id _ _ (hr _)
theorem start13 (x5 : S16.Idx → BitVec 32) (hr : ∀ k, (x5 k).toNat < 8) (b : Fin 16) : val_main_v13 (F := F) x5 (ixP b) = x5 (ix1 b) := by
  rw [val_main_v13_apply, val_main_v12_apply, val_main_v9_apply, val_main_v8_apply, val_main_c_1_apply, col_row13]
  exact wrap_id _ _ (hr _)
theorem start20 (x5 : S16.Idx → BitVec 32) (hr : ∀ k, (x5 k).toNat < 8) (b : Fin 16) : val_main_v20 (F := F) x5 (ixP b) = x5 (ix1 b) := by
  rw [val_main_v20_apply, val_main_v19_apply, val_main_v16_apply, val_main_v15_apply, val_main_c_3_apply, col_row20]
  exact wrap_id _ _ (hr _)

/-- `A[idx]` at (b, r, d) is A at the adapter of b. -/
theorem rowsA (x2 : S8x16x2048.Idx → F .f32) (x5 : S16.Idx → BitVec 32) (hr : ∀ k, (x5 k).toNat < 8) (b : Fin 16) (r : Fin 16) (d : Fin 2048) :
    val_main_v7 (F := F) x2 x5 (ix3 b r d) = x2 (ix3 (adapter x5 b) r d) := by
  unfold val_main_v7
  rw [gather_rows gather_S8x16x2048_S16x1_S16x16x2048_12_0_n_n_0_1_1162048 rfl rfl rfl rfl rfl rfl x2 _ b r d (by decide)]
  refine congrArg x2 (congrArg (fun z => ix3 z r d) (Fin.ext ?_))
  show min (val_main_v6 (F := F) x5 (ixP b)).toInt.toNat (8 - 1) = _
  rw [start6 x5 hr, clamp_id x5 b hr]

/-- `Bm[idx]` at (b, o, r) is Bm at the adapter of b. -/
theorem rowsB (x3 : S8x2048x16.Idx → F .f32) (x5 : S16.Idx → BitVec 32) (hr : ∀ k, (x5 k).toNat < 8) (b : Fin 16) (o : Fin 2048) (r : Fin 16) :
    val_main_v14 (F := F) x3 x5 (ix3 b o r) = x3 (ix3 (adapter x5 b) o r) := by
  unfold val_main_v14
  rw [gather_rows gather_S8x2048x16_S16x1_S16x2048x16_12_0_n_n_0_1_1204816 rfl rfl rfl rfl rfl rfl x3 _ b o r (by decide)]
  refine congrArg x3 (congrArg (fun z => ix3 z o r) (Fin.ext ?_))
  show min (val_main_v13 (F := F) x5 (ixP b)).toInt.toNat (8 - 1) = _
  rw [start13 x5 hr, clamp_id x5 b hr]

/-- `scalings[idx]` at b is the adapter's scaling. -/
theorem rowsS (x4 : S8.Idx → F .f32) (x5 : S16.Idx → BitVec 32) (hr : ∀ k, (x5 k).toNat < 8) (b : Fin 16) :
    val_main_v21 (F := F) x4 x5 (ix1 b) = x4 (ix1 (adapter x5 b)) := by
  unfold val_main_v21
  have e : (ix1 b : S16.Idx) = Shape.Idx.ofFin b := funext fun a => by match a with | ⟨0, _⟩ => rfl
  rw [e, gather_take gather_S8_S16x1_S16_n_0_n_n_0_1_1 rfl rfl rfl rfl x4 _ b (by decide)]
  refine congrArg x4 (funext fun a => Fin.ext ?_)
  match a with
  | ⟨0, _⟩ =>
    show min (val_main_v20 (F := F) x5 (ixP b)).toInt.toNat (8 - 1) = _
    rw [start20 x5 hr, clamp_id x5 b hr]

/-! The index functions of the generated stages, at an entry (b, q, o) given by its coordinates. -/

theorem e1 (b : Fin 16) (q o k : Fin 2048) : lidx_main_v0 (ix3 b q o) k = ix3 b q k :=
  funext fun a => by match a with | ⟨0, _⟩ => rfl | ⟨1, _⟩ => rfl | ⟨2, _⟩ => rfl
theorem e2 (b : Fin 16) (q o k : Fin 2048) : ridx_main_v0 (ix3 b q o) k = ix2 o k :=
  funext fun a => by match a with | ⟨0, _⟩ => rfl | ⟨1, _⟩ => rfl
theorem e3 (b : Fin 16) (q o : Fin 2048) (r : Fin 16) (k : Fin 2048) : lidx_main_v22 (lidx_main_v23 (ix3 b q o) r) k = ix3 b q k :=
  funext fun a => by match a with | ⟨0, _⟩ => rfl | ⟨1, _⟩ => rfl | ⟨2, _⟩ => rfl
theorem e4 (b : Fin 16) (q o : Fin 2048) (r : Fin 16) (k : Fin 2048) : ridx_main_v22 (lidx_main_v23 (ix3 b q o) r) k = ix3 b r k :=
  funext fun a => by match a with | ⟨0, _⟩ => rfl | ⟨1, _⟩ => rfl | ⟨2, _⟩ => rfl
theorem e5 (b : Fin 16) (q o : Fin 2048) (r : Fin 16) : ridx_main_v23 (ix3 b q o) r = ix3 b o r :=
  funext fun a => by match a with | ⟨0, _⟩ => rfl | ⟨1, _⟩ => rfl | ⟨2, _⟩ => rfl
theorem e6 (b : Fin 16) (q o : Fin 2048) : idx_main_v24 (idx_main_v25 (ix3 b q o)) = ix1 b :=
  funext fun a => by match a with | ⟨0, _⟩ => rfl

/-- The reference's result is the base product plus the scaled low-rank update of the batch element's adapter. -/
theorem ref_eq (x0 : (⟨S16x2048x2048, .f32⟩ : BufTy).Contents (Elt Ideal)) (x1 : (⟨S2048x2048, .f32⟩ : BufTy).Contents (Elt Ideal))
    (x2 : (⟨S8x16x2048, .f32⟩ : BufTy).Contents (Elt Ideal)) (x3 : (⟨S8x2048x16, .f32⟩ : BufTy).Contents (Elt Ideal))
    (x4 : (⟨S8, .f32⟩ : BufTy).Contents (Elt Ideal)) (x5 : (⟨S16, .i32⟩ : BufTy).Contents (Elt Ideal))
    (hr : ∀ k, (x5 k).toNat < 8) :
    val_main_v27 (F := Ideal) x0 x1 x2 x3 x4 x5 = Cert.Lora.refOut x0 x1 x2 x3 x4 x5 := by
  funext i
  obtain ⟨b, q, o, rfl⟩ : ∃ (b : Fin 16) (q o : Fin 2048), i = ix3 b q o := ⟨i 0, i 1, i 2, eq_ix3 i⟩
  rw [val_main_v27_apply, val_main_v26_apply, val_main_v0_apply, val_main_v23_apply, val_main_v25_apply, val_main_v24_apply]
  simp only [val_main_v22_apply, e1, e2, e3, e4, e5, e6, rowsA (F := Ideal) _ x5 hr, rowsB (F := Ideal) _ x5 hr, rowsS (F := Ideal) _ x5 hr]
  rfl

end Cert.ReferenceIdeal.RefVal

end
-- ==== Proof.lean ====
/-
  Multi-adapter low-rank linear layer: the kernel against its reference, over the extended reals.

  The kernel merges each adapter into the base weight, Wp[a] = W + s[a] · (Bm[a] A[a]), and for batch element b
  contracts x[b] with Wp[idx[b]]ᵀ, one block of 512 rows per grid point, the weight block chosen by the prefetched
  adapter index. The reference computes x Wᵀ and adds ((x A[idx]ᵀ) Bm[idx]ᵀ) · s[idx]. For finite inputs and adapter
  indices in [0, 8) both are, entry by entry,
      Σ_d x[b,t,d] · W[o,d] + (Σ_r (Σ_d x[b,t,d] · A[a,r,d]) · Bm[a,o,r]) · s[a],   a = idx[b],
  by distributivity and an exchange of the two finite sums (real arithmetic; the changes of float format are the
  identity on the extended reals).

  The frames: the launch needs every weight block inside the stack of 8 merged weights, which the index range of the
  precondition gives; the reference is a straight line of host operations. No operation was rewritten by the
  idealization, so the kernel's idealization is the kernel's own text.
-/
import proofs.«413691_j55001351193152_3_alg».proof.Defs
import proofs.«413691_j55001351193152_3_alg».proof.Proof.Gen.Kernel
import proofs.«413691_j55001351193152_3_alg».proof.Proof.Gen.Kernel.Skeleton
import proofs.«413691_j55001351193152_3_alg».proof.Proof.Gen.Kernel.Launch
import proofs.«413691_j55001351193152_3_alg».proof.Proof.Gen.Kernel.Points
import proofs.«413691_j55001351193152_3_alg».proof.Proof.Gen.Kernel.Frame
import proofs.«413691_j55001351193152_3_alg».proof.Proof.Gen.KernelIdeal
import proofs.«413691_j55001351193152_3_alg».proof.Proof.Gen.KernelIdeal.Skeleton
import proofs.«413691_j55001351193152_3_alg».proof.Proof.Gen.KernelIdeal.Launch
import proofs.«413691_j55001351193152_3_alg».proof.Proof.Gen.KernelIdeal.Points
import proofs.«413691_j55001351193152_3_alg».proof.Proof.Gen.KernelIdeal.Frame
import proofs.«413691_j55001351193152_3_alg».proof.Proof.Gen.ReferenceIdeal
import proofs.«413691_j55001351193152_3_alg».proof.Proof.Gen.ReferenceIdeal.Run
import proofs.«413691_j55001351193152_3_alg».proof.Proof.Gen.ReferenceIdeal.Read
import proofs.«413691_j55001351193152_3_alg».proof.Proof.Gen.Pre_finite_inputs
import proofs.«413691_j55001351193152_3_alg».proof.Proof.OkKernel
import proofs.«413691_j55001351193152_3_alg».proof.Proof.OkKernelIdeal
import proofs.«413691_j55001351193152_3_alg».proof.Proof.KernelValue
import proofs.«413691_j55001351193152_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs: the weight blocks are in range by the precondition. -/
theorem frame_k : Cert.frame_Kernel := fun m ρ h => Cert.Kernel.Gen.frame m ρ (Cert.Kernel.OkOfPre.ok_of_pre m h)

/-- So does its idealization. -/
theorem frame_ki : Cert.frame_KernelIdeal := fun m ρ h => Cert.KernelIdeal.Gen.frame m ρ (Cert.KernelIdeal.OkOfPre.ok_of_pre m h)

/-- The reference is a straight line of host operations. -/
theorem frame_r : Cert.frame_ReferenceIdeal := fun m ρ _ =>
  (θ_run Cert.ReferenceIdeal.defs _ _).mono (fun _ h c => (h c).2) (Cert.ReferenceIdeal.Value.run (F := Ideal) m ρ)

/-- Both programs end with the same array: the kernel's merged-weight contraction is the reference's base product plus
    scaled low-rank update, for real entries and adapter indices in range. -/
theorem algebraic : Cert.algebraic_KernelIdeal_ReferenceIdeal := by
  intro m ρ m' ρ' hpre hagree
  have hO := Cert.KernelIdeal.OkOfPre.ok_of_pre m hpre
  have hr : ∀ k, (m (((0 : Dev Cert.KernelIdeal.nD) : Thread Cert.KernelIdeal.nD Cert.KernelIdeal.τ).loc Cert.KernelIdeal.main_arg5) k).toNat < 8 :=
    fun k => Cert.Lora.PreDecode.idx_lt _ _ _ _ _ _ (hpre 0) k
  obtain ⟨f0, f1, f2, f3, f4⟩ := Cert.Lora.PreDecode.finite _ _ _ _ _ _ (hpre 0)
  refine ⟨fun c => Cert.KernelIdeal.Val.outArr m c, Cert.KernelIdeal.Val.run m ρ hO hr, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  refine (Cert.ReferenceIdeal.Read.val_main_v27_eq _ _ _ _ _ _).trans ?_
  rw [(hagree 0).1, (hagree 0).2.1, (hagree 0).2.2.1, (hagree 0).2.2.2.1, (hagree 0).2.2.2.2.1, (hagree 0).2.2.2.2.2]
  rw [Cert.ReferenceIdeal.RefVal.ref_eq _ _ _ _ _ _ hr]
  exact (Cert.Lora.kernelOut_eq_refOut _ _ _ _ _ _ f0 f1 f2 f3 f4).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
